-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S128x128 : Shape := ⟨2, ![128, 128]⟩
abbrev S128 : Shape := ⟨1, ![128]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S262144x128 .f32) (main_arg1 : FVec F S128x128 .f32) (main_arg2 : FVec F S128 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S262144x128 : Shape := ⟨2, ![262144, 128]⟩
abbrev S128x128 : Shape := ⟨2, ![128, 128]⟩
abbrev S128 : Shape := ⟨1, ![128]⟩
abbrev S1x128 : Shape := ⟨2, ![1, 128]⟩
abbrev S8192x128 : Shape := ⟨2, ![8192, 128]⟩

abbrev nBuf : Space → Nat
  | .hbm => 6
  | .vmem => 6
  | .smem => 0
  | _ => 0

abbrev bufTy : (tb : Table) → Fin (tcTables nBuf tb) → BufTy
  | .hbm, ⟨0, _⟩ => ⟨S262144x128, .f32⟩
  | .hbm, ⟨1, _⟩ => ⟨S128x128, .f32⟩
  | .hbm, ⟨2, _⟩ => ⟨S128, .f32⟩
  | .hbm, ⟨3, _⟩ => ⟨S1x128, .f32⟩
  | .hbm, ⟨4, _⟩ => ⟨S128x128, .bf16⟩
  | .hbm, ⟨5, _⟩ => ⟨S262144x128, .f32⟩
  | .local _ .vmem, ⟨0, _⟩ => ⟨S8192x128, .f32⟩
  | .local _ .vmem, ⟨1, _⟩ => ⟨S8192x128, .f32⟩
  | .local _ .vmem, ⟨2, _⟩ => ⟨S128x128, .bf16⟩
  | .local _ .vmem, ⟨3, _⟩ => ⟨S1x128, .f32⟩
  | .local _ .vmem, ⟨4, _⟩ => ⟨S8192x128, .f32⟩
  | .local _ .vmem, ⟨5, _⟩ => ⟨S8192x128, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S128_S1x128 : S128.ShapeCasts S1x128
  bitsLt_bf16_f32 : FTy.bits .bf16 < FTy.bits .f32
  inb_S8192x128_S8192x128_0_0 : ∀ a, (![0, 0] : Fin 2 → Nat) a + S8192x128.size a ≤ S8192x128.size a
  h_S8192x128 : 0 < S8192x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x128.size a ≤ S262144x128.size a
  hwx0_3 : ∀ i : grid0.Coords, EltTy.bits .f32 = 32 ∨ (Rect.block (s := S262144x128) S8192x128.size (cc0_transform_3 i) (hinb0_3 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S8192x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144x128 : Shape := ⟨2, ![262144, 128]⟩
abbrev S128x128 : Shape := ⟨2, ![128, 128]⟩
abbrev S128 : Shape := ⟨1, ![128]⟩
abbrev S1x128 : Shape := ⟨2, ![1, 128]⟩

abbrev nBuf : Space → Nat
  | .hbm => 7
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S128x128, .f32⟩
  | .hbm, ⟨2, _⟩ => ⟨S128, .f32⟩
  | .hbm, ⟨3, _⟩ => ⟨S262144x128, .f32⟩
  | .hbm, ⟨4, _⟩ => ⟨S1x128, .f32⟩
  | .hbm, ⟨5, _⟩ => ⟨S262144x128, .f32⟩
  | .hbm, ⟨6, _⟩ => ⟨S262144x128, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  dot_S262144x128_S128x128_S262144x128_1_0_0_1_n_n_wf : DotDims.WF S262144x128 S128x128 S262144x128 [1] [0] [0] [1] [] []

variable [Facts₀]

def dot_S262144x128_S128x128_S262144x128_1_0_0_1_n_n : DotDims S262144x128 S128x128 S262144x128 where
  lhsContracting := [1]
  rhsContracting := [0]
  lhsNonContracting := [0]
  rhsNonContracting := [1]
  lhsBatch := []
  rhsBatch := []
  wf := dot_S262144x128_S128x128_S262144x128_1_0_0_1_n_n_wf

class Facts : Prop extends Facts₀ where

variable [Facts]
-- ==== Proof.Spec.lean ====
/-
  The function both programs compute, on the extended reals: an affine map applied to every row of a matrix.
  For x with 262144 rows and 128 columns, a square w of order 128 and a vector b of 128 entries, entry (r, j) of the
  result is the inner product of row r of x with column j of w, with b j added:
      (x · w + b) (r, j) = (∑ k, x (r, k) · w (k, j)) + b j.
  The sum is Mathlib's finite sum over the 128 values of k: it fixes no order and no grouping of the terms, which is
  what lets a product computed tile by tile and a product computed at once be the same number.
-/
import Idealize.ShloMosaic.PureOps.Ideal
import Idealize.ShloMosaic.Lib.ValueIdx

noncomputable section

open scoped BigOperators
open Idealize.ShloMosaic Idealize.ShloMosaic.ValueIdx

namespace Cert.RowsAffine

/-- Entry (r, j) of `x · w + b`: the sum over k of x (r, k) · w (k, j), then b j added. -/
def rowsAffine (x : (⟨2, ![262144, 128]⟩ : Shape).Idx → EReal) (w : (⟨2, ![128, 128]⟩ : Shape).Idx → EReal)
    (b : (⟨1, ![128]⟩ : Shape).Idx → EReal) : (⟨2, ![262144, 128]⟩ : Shape).Idx → EReal :=
  fun i => (∑ k : Fin 128, x (ix2 (i 0) k) * w (ix2 k (i 1))) + b (ix1 (i 1))

/-- The same entry named by its two coordinates. -/
theorem rowsAffine_ix2 (x : (⟨2, ![262144, 128]⟩ : Shape).Idx → EReal) (w : (⟨2, ![128, 128]⟩ : Shape).Idx → EReal)
    (b : (⟨1, ![128]⟩ : Shape).Idx → EReal) (r : Fin 262144) (j : Fin 128) :
    rowsAffine x w b (ix2 r j) = (∑ k : Fin 128, x (ix2 r k) * w (ix2 k j)) + b (ix1 j) := rfl

/-- Computing the map one tile of rows at a time: if row p of a tile t0 is row (i 0) of x, the matrix m0 used with the tile
    agrees with w on column q = i 1, and the one-row bias b0 holds b q at (0, q), then the tile's entry
    (∑ k, t0 (p, k) · m0 (k, q)) + b0 (0, q) is entry i of the affine map. -/
theorem rowsAffine_of_tile (x : (⟨2, ![262144, 128]⟩ : Shape).Idx → EReal) (w : (⟨2, ![128, 128]⟩ : Shape).Idx → EReal)
    (b : (⟨1, ![128]⟩ : Shape).Idx → EReal) (t0 : (⟨2, ![8192, 128]⟩ : Shape).Idx → EReal)
    (m0 : (⟨2, ![128, 128]⟩ : Shape).Idx → EReal) (b0 : (⟨2, ![1, 128]⟩ : Shape).Idx → EReal)
    (p : Fin 8192) (q : Fin 128) (i : (⟨2, ![262144, 128]⟩ : Shape).Idx) (hq : i 1 = q)
    (ht : ∀ k : Fin 128, t0 (ix2 p k) = x (ix2 (i 0) k)) (hm : ∀ k : Fin 128, m0 (ix2 k q) = w (ix2 k q))
    (hb : b0 (ix2 0 q) = b (ix1 q)) :
    (∑ k : Fin 128, t0 (ix2 p k) * m0 (ix2 k q)) + b0 (ix2 0 q) = rowsAffine x w b i := by
  unfold rowsAffine
  rw [hq, hb]
  exact congrArg (· + b (ix1 q)) (Finset.sum_congr rfl fun k _ => by rw [ht k, hm k])

end Cert.RowsAffine

end
-- ==== Proof.RefIsAffine.lean ====
/-
  The reference computes the affine map of the rows. Its four operations, read at an entry (r, j): the product
  `dot_general` is the sum over k of x (r, k) · w (k, j); the two broadcasts carry b j first to (0, j) of a one-row
  matrix and from there to every row; the last operation adds the two. That is `rowsAffine` entry by entry.
-/
import proofs.«420373_j36163624632513_3_alg».proof.Proof.Gen.ReferenceIdeal.Read
import proofs.«420373_j36163624632513_3_alg».proof.Proof.Spec

noncomputable section

open scoped BigOperators
open Idealize.ShloMosaic Idealize.ShloMosaic.ValueIdx

namespace Cert.RowsAffine.Ref

open Cert.ReferenceIdeal Cert.ReferenceIdeal.Read

/-- The left factor of term k of entry i sits at row (i 0), column k. -/
theorem left_at (i : S262144x128.Idx) (k : Fin 128) : lidx_main_v0 i k = ix2 (i 0) k :=
  funext fun a => Fin.ext (by match a with | ⟨0, _⟩ => rfl | ⟨1, _⟩ => rfl)

/-- The right factor of term k of entry i sits at row k, column (i 1). -/
theorem right_at (i : S262144x128.Idx) (k : Fin 128) : ridx_main_v0 i k = ix2 k (i 1) :=
  funext fun a => Fin.ext (by match a with | ⟨0, _⟩ => rfl | ⟨1, _⟩ => rfl)

/-- Entry i of the broadcast bias is the bias at column (i 1). -/
theorem bias_at (i : S262144x128.Idx) : idx_main_v1 (idx_main_v2 i) = ix1 (i 1) :=
  funext fun a => Fin.ext (by match a with | ⟨0, _⟩ => rfl)

/-- The reference's result, as a function of its three arguments, is the affine map of the rows. -/
theorem ref_eq (x : (⟨S262144x128, .f32⟩ : BufTy).Contents (Elt Ideal)) (w : (⟨S128x128, .f32⟩ : BufTy).Contents (Elt Ideal))
    (b : (⟨S128, .f32⟩ : BufTy).Contents (Elt Ideal)) :
    val_main_v3 (F := Ideal) x w b = rowsAffine x w b := by
  funext i
  rw [val_main_v3_apply, val_main_v0_apply, val_main_v2_apply, val_main_v1_apply]
  simp only [left_at, right_at, bias_at]
  rfl

end Cert.RowsAffine.Ref

end
-- ==== Proof.TileBody.lean ====
/-
  What the kernel's body computes on one tile, at the extended reals. The body takes a tile of 8192 rows of x, the whole
  square matrix w and the one-row bias, and stores, at row p and column q of the tile,
      (∑ k, tile (p, k) · w (k, q)) + bias (0, q).
  Narrowing the tile to the 16-bit format changes nothing at the extended reals; the matrix unit's product into a zero
  accumulator is the bare sum; the bias row is repeated on every row of the tile.
-/
import proofs.«420373_j36163624632513_3_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.RowsAffine.Tile

open Cert.KernelIdeal Cert.KernelIdeal.Gen

/-! ## Where term k of entry i of the tile product reads its two factors -/

/-- The left factor keeps the entry's row. -/
theorem lhs_tile_0 (i : S8192x128.Idx) (q : dot_S8192x128_S128x128_S8192x128_1_0_0_1_n_n.contr.Idx) :
    (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
/-- The left factor's column is the summation index. -/
theorem lhs_tile_1 (i : S8192x128.Idx) (q : dot_S8192x128_S128x128_S8192x128_1_0_0_1_n_n.contr.Idx) :
    (dot_S8192x128_S128x128_S8192x128_1_0_0_1_n_n.lhsIdx i q 1).val = (q ⟨0, by decide⟩).val :=
  dot_S8192x128_S128x128_S8192x128_1_0_0_1_n_n.lhsIdx_val_of_single rfl i q
/-- The right factor's row is the summation index. -/
theorem rhs_tile_0 (i : S8192x128.Idx) (q : dot_S8192x128_S128x128_S8192x128_1_0_0_1_n_n.contr.Idx) :
    (dot_S8192x128_S128x128_S8192x128_1_0_0_1_n_n.rhsIdx i q 0).val = (q ⟨0, by decide⟩).val :=
  dot_S8192x128_S128x128_S8192x128_1_0_0_1_n_n.rhsIdx_val_of_single rfl i q
/-- The right factor keeps the entry's column. -/
theorem rhs_tile_1 (i : S8192x128.Idx) (q : dot_S8192x128_S128x128_S8192x128_1_0_0_1_n_n.contr.Idx) :
    (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

/-! ## The body's three non-pointwise steps, each read at an entry -/

/-- The matrix unit's product of a tile with the square matrix, into a zero accumulator, at (p, q): row p of the tile
    against column q of the matrix. -/
theorem tile_product (l : FVec Ideal S8192x128 .bf16) (r : FVec Ideal S128x128 .bf16) (p : Fin 8192) (q : Fin 128) :
    matmul dot_S8192x128_S128x128_S8192x128_1_0_0_1_n_n none l r (constant S8192x128 .f32 0x00000000#32) (ix2 p q)
      = ∑ k : Fin 128, l (ix2 p k) * r (ix2 k q) := by
  refine (Ideal.matmul_constant_zero_apply dot_S8192x128_S128x128_S8192x128_1_0_0_1_n_n none l r (ix2 p q)).trans ?_
  rw [← Equiv.sum_comp (contrEquiv1 dot_S8192x128_S128x128_S8192x128_1_0_0_1_n_n 128 rfl rfl).symm]
  refine Finset.sum_congr rfl fun k _ => ?_
  have hk := contrEquiv1_symm_val dot_S8192x128_S128x128_S8192x128_1_0_0_1_n_n 128 rfl rfl k
  have el : dot_S8192x128_S128x128_S8192x128_1_0_0_1_n_n.lhsIdx (ix2 p q) ((contrEquiv1 dot_S8192x128_S128x128_S8192x128_1_0_0_1_n_n 128 rfl rfl).symm k) = ix2 p k := funext fun a => Fin.ext (by
    match a with
    | ⟨0, _⟩ => exact lhs_tile_0 _ _
    | ⟨1, _⟩ => exact (lhs_tile_1 _ _).trans hk)
  have er : dot_S8192x128_S128x128_S8192x128_1_0_0_1_n_n.rhsIdx (ix2 p q) ((contrEquiv1 dot_S8192x128_S128x128_S8192x128_1_0_0_1_n_n 128 rfl rfl).symm k) = ix2 k q := funext fun a => Fin.ext (by
    match a with
    | ⟨0, _⟩ => exact (rhs_tile_0 _ _).trans hk
    | ⟨1, _⟩ => exact rhs_tile_1 _ _)
  rw [el, er]

/-- The one-row bias repeated down the tile: entry (p, q) is the row's entry q. -/
theorem bias_rows {α : Type} (v : S1x128.Idx → α) (h : S1x128.Broadcasts S8192x128) (p : Fin 8192) (q : Fin 128) :
    broadcastTo S8192x128 v h (ix2 p q) = v (ix2 0 q) :=
  broadcastTo_apply v h (ix2 p q) (ix2 0 q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])

/-! ## The body's stored value at an entry -/

/-- Entry (p, q) of what the body stores: row p of the tile against column q of the matrix, plus the bias at q. -/
theorem body_at (x0 : Vec Ideal S8192x128 .f32) (x1 : Vec Ideal S128x128 .bf16) (x2 : Vec Ideal S1x128 .f32)
    (p : Fin 8192) (q : Fin 128) :
    k0_pay1 (F := Ideal) x0 x1 x2 (ix2 p q) = (∑ k : Fin 128, x0 (ix2 p k) * x1 (ix2 k q)) + x2 (ix2 0 q) := by
  unfold k0_pay1
  show matmul (F := Ideal) dot_S8192x128_S128x128_S8192x128_1_0_0_1_n_n none (truncf .bf16 x0 _) (shapeCast S128x128 x1 _)
        (constant (F := Ideal) S8192x128 .f32 0x00000000#32) (ix2 p q)
      + broadcastTo S8192x128 (shapeCast S1x128 x2 _) _ (ix2 p q) = _
  rw [tile_product, bias_rows, shapeCast_self, shapeCast_self]
  rfl

end Cert.RowsAffine.Tile

end
-- ==== Proof.RegionEntry.lean ====
/-
  What the tiled region finds in the two arrays the host prepared for it. Before the region the host narrows the square
  matrix w to the 16-bit format and lays the bias out as a matrix of one row. Narrowing is the identity at the extended
  reals, so the region finds w itself; and entry (0, q) of the one-row bias is the bias at q.
-/
import proofs.«420373_j36163624632513_3_alg».proof.Proof.Gen.KernelIdeal.Frame
import Idealize.ShloMosaic.Lib.Pipeline.Value
import Idealize.ShloMosaic.Lib.ValueIdx
import Idealize.ShloMosaic.Lib.StableHlo.Run

noncomputable section

open Idealize.ShloMosaic Idealize.ShloMosaic.TcCoe Idealize.ShloMosaic.ValueIdx Idealize.SL.Sem
open Idealize.ShloMosaic.StableHlo

namespace Cert.RowsAffine.Entry

open Cert.KernelIdeal Cert.KernelIdeal.Gen

section AnyFormat
variable {F : FTy → Type} [FloatOps F]
variable (m : (ℓ : Loc nD τ sig) → Buf (Elt F) ℓ)

/-- The matrix as the region finds it: the argument, narrowed. -/
theorem matrix_found (c : Dev nD) :
    (V m c main_v1 : Vec F S128x128 .bf16)
      = truncf .bf16 (m ((c : Thread nD τ).loc main_arg1) : Vec F S128x128 .f32) Gen.bitsLt_bf16_f32 := by
  dsimp only [V, hostOps0]
  after_results

/-- The bias as the region finds it: the argument's 128 entries laid out as one row. -/
theorem bias_found (c : Dev nD) :
    (V m c main_v0 : Vec F S1x128 .f32)
      = shapeCast S1x128 (m ((c : Thread nD τ).loc main_arg2) : Vec F S128 .f32) Gen.shapeCasts_S128_S1x128 := by
  dsimp only [V, hostOps0]
  after_results
  rfl

end AnyFormat

section AtTheExtendedReals
variable (m : (ℓ : Loc nD τ sig) → Buf (Elt Ideal) ℓ)

/-- At the extended reals the region finds the matrix argument itself, entry by entry. -/
theorem matrix_found_at (c : Dev nD) (k q : Fin 128) :
    (V m c main_v1 : Vec Ideal S128x128 .bf16) (ix2 k q)
      = (m ((c : Thread nD τ).loc main_arg1) : Vec Ideal S128x128 .f32) (ix2 k q) := by
  rw [matrix_found]
  rfl

/-- Entry (0, q) of the one-row bias is the bias argument at q. -/
theorem bias_found_at (c : Dev nD) (q : Fin 128) :
    (V m c main_v0 : Vec Ideal S1x128 .f32) (ix2 0 q)
      = (m ((c : Thread nD τ).loc main_arg2) : Vec Ideal S128 .f32) (ix1 q) := by
  rw [bias_found]
  refine shapeCast_apply _ _ (ix2 0 q) (ix1 q) ?_
  rw [Shape.rowMajor_val_one, Shape.rowMajor_val_two]
  show q.val = 0 * 128 + q.val
  omega

end AtTheExtendedReals

end Cert.RowsAffine.Entry

end
-- ==== Proof.WholeArray.lean ====
/-
  From tiles to the whole array. The region visits 32 grid points; at point t it reads tile t of x (rows 8192·t to
  8192·t + 8191), the whole matrix and the whole one-row bias, and writes tile t of the result. Row p of tile t is row
  8192·t + p of the array, so what point t writes is tile t of the affine map of the rows of x; the 32 tiles cover all
  262144 rows, so the result array ends holding that map everywhere.
-/
import proofs.«420373_j36163624632513_3_alg».proof.Proof.Gen.KernelIdeal.Value
import proofs.«420373_j36163624632513_3_alg».proof.Proof.Spec
import proofs.«420373_j36163624632513_3_alg».proof.Proof.TileBody
import proofs.«420373_j36163624632513_3_alg».proof.Proof.RegionEntry

noncomputable section

open scoped BigOperators
open Idealize.ShloMosaic Idealize.ShloMosaic.TcCoe Idealize.ShloMosaic.ValueIdx Idealize.SL.Sem
open Idealize.ShloMosaic.Pipeline (Dat)

namespace Cert.RowsAffine.Whole

open Cert.KernelIdeal Cert.KernelIdeal.Gen Cert.KernelIdeal.Value

variable (m : (ℓ : Loc nD τ sig) → Buf (Elt Ideal) ℓ) (ρ : Dev nD → PrngReg)

theorem zeros : (![0, 0] : Fin 2 → Nat) = fun _ => 0 := funext fun a => by fin_cases a <;> rfl

/-- Where each window's block sits at grid point t: the tiles of x and of the result at block row t, the matrix and
    the bias at their only block. -/
theorem block_positions : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The array the run leaves in the result: the affine map of the rows of the three arguments. -/
abbrev result (c : Dev nD) : S262144x128.Idx → EReal :=
  rowsAffine (m ((c : Thread nD τ).loc main_arg0)) (m ((c : Thread nD τ).loc main_arg1)) (m ((c : Thread nD τ).loc main_arg2))

/-! ## The three input blocks at point t, read off the arguments -/

/-- Entry (p, k) of tile t of x is entry (8192·t + p, k) of x. -/
theorem tile_at (c : Dev nD) (t : Fin cfg0.N) (y : S8192x128.Idx) (i : S262144x128.Idx)
    (h0 : (i 0).val = t.val * 8192 + (y 0).val) (h1 : (i 1).val = (y 1).val) :
    (iblk m c 0 t : Vec Ideal S8192x128 .f32) y = (m ((c : Thread nD τ).loc main_arg0) : Vec Ideal S262144x128 .f32) i := by
  obtain ⟨e0, e1, -⟩ := block_positions t
  unfold iblk
  rw [View.read_apply]
  show V m c main_arg0 _ = m ((c : Thread nD τ).loc main_arg0) _
  refine (congrFun (V_main_arg0 m c) _).trans (congrArg (m ((c : Thread nD τ).loc main_arg0)) ?_)
  funext a
  apply Fin.ext
  match a with
  | ⟨0, _⟩ => show win0_0.index t (0 : Fin 2) * 8192 + 1 * (y 0).val = (i 0).val; rw [e0, h0]; omega
  | ⟨1, _⟩ => show win0_0.index t (1 : Fin 2) * 128 + 1 * (y 1).val = (i 1).val; rw [e1, h1]; omega

/-- The matrix block at any point is the matrix argument. -/
theorem matrix_at (c : Dev nD) (t : Fin cfg0.N) (k q : Fin 128) :
    (iblk m c 1 t : Vec Ideal S128x128 .bf16) (ix2 k q) = (m ((c : Thread nD τ).loc main_arg1) : Vec Ideal S128x128 .f32) (ix2 k q) := by
  obtain ⟨-, -, e0, e1, -⟩ := block_positions t
  unfold iblk
  rw [View.read_apply]
  show (V m c main_v1 : Vec Ideal S128x128 .bf16) _ = _
  refine (congrArg (V m c main_v1 : Vec Ideal S128x128 .bf16) ?_).trans (Entry.matrix_found_at m c k q)
  funext a
  apply Fin.ext
  match a with
  | ⟨0, _⟩ => show win0_1.index t (0 : Fin 2) * 128 + 1 * k.val = k.val; rw [e0]; omega
  | ⟨1, _⟩ => show win0_1.index t (1 : Fin 2) * 128 + 1 * q.val = q.val; rw [e1]; omega

/-- The bias block at any point, at (0, q), is the bias argument at q. -/
theorem bias_at (c : Dev nD) (t : Fin cfg0.N) (q : Fin 128) :
    (iblk m c 2 t : Vec Ideal S1x128 .f32) (ix2 0 q) = (m ((c : Thread nD τ).loc main_arg2) : Vec Ideal S128 .f32) (ix1 q) := by
  obtain ⟨-, -, -, -, e0, e1, -⟩ := block_positions t
  unfold iblk
  rw [View.read_apply]
  show (V m c main_v0 : Vec Ideal S1x128 .f32) _ = _
  refine (congrArg (V m c main_v0 : Vec Ideal S1x128 .f32) ?_).trans (Entry.bias_found_at m c q)
  funext a
  apply Fin.ext
  match a with
  | ⟨0, _⟩ => show win0_2.index t (0 : Fin 2) * 1 + 1 * 0 = 0; rw [e0]
  | ⟨1, _⟩ => show win0_2.index t (1 : Fin 2) * 128 + 1 * q.val = q.val; rw [e1]; omega

/-! ## What point t writes back -/

/-- The body's stored tile at point t, entry by entry, is the affine map at the entry's place in the array. -/
theorem stored_at (c : Dev nD) (t : Fin cfg0.N) (y : S8192x128.Idx) (i : S262144x128.Idx)
    (h0 : (i 0).val = t.val * 8192 + (y 0).val) (h1 : (i 1).val = (y 1).val) :
    k0_pay1 (F := Ideal) (iblk m c 0 t) (iblk m c 1 t) (iblk m c 2 t) y = result m c i := by
  have hy := Tile.body_at (iblk m c 0 t) (iblk m c 1 t) (iblk m c 2 t) (y 0) (y 1)
  refine (congrArg (k0_pay1 (F := Ideal) (iblk m c 0 t) (iblk m c 1 t) (iblk m c 2 t)) (eq_ix2 y)).trans (hy.trans ?_)
  exact rowsAffine_of_tile (m ((c : Thread nD τ).loc main_arg0)) (m ((c : Thread nD τ).loc main_arg1))
    (m ((c : Thread nD τ).loc main_arg2)) (iblk m c 0 t) (iblk m c 1 t) (iblk m c 2 t) (y 0) (y 1) i (Fin.ext h1)
    (fun k => tile_at m c t (ix2 (y 0) k) (ix2 (i 0) k) h0 rfl) (fun k => matrix_at m c t k (y 1)) (bias_at m c t (y 1))

/-- WHAT POINT t WRITES BACK is tile t of the affine map of the rows. -/
theorem flushed_eq (c : Dev nD) (t : Fin cfg0.N) :
    (dats m 0 c).flushed 3 t = ((cfg0.win 3).blk t).view.read (Elt Ideal) (result m c) := by
  obtain ⟨-, -, -, -, -, -, e0, e1⟩ := block_positions t
  rw [flushed3]
  unfold out0_3
  rw [View.canon_unit_zero zeros]
  simp only [View.ld_unit_zero (S := S8192x128) zeros, View.ld_unit_zero (S := S128x128) zeros, View.ld_unit_zero (S := S1x128) zeros]
  funext j
  show k0_pay1 (F := Ideal) (iblk m c 0 t) (iblk m c 1 t) (iblk m c 2 t) j = result m c (((cfg0.win 3).blk t).view.emb j)
  refine stored_at m c t j _ ?_ ?_
  · show win0_3.index t (0 : Fin 2) * 8192 + 1 * (j 0).val = t.val * 8192 + (j 0).val; rw [e0]; omega
  · show win0_3.index t (1 : Fin 2) * 128 + 1 * (j 1).val = (j 1).val; rw [e1]; omega

/-! ## The 32 tiles cover the array -/

/-- An entry of the array is in point t's tile iff each coordinate is in the tile's range on its axis. -/
theorem mem_tile (t : Fin cfg0.N) (i : S262144x128.Idx) :
    i ∈ ((cfg0.win 3).blk t).view.set ↔ ∀ a : Fin 2, win0_3.index t a * S8192x128.size a ≤ (i a).val ∧ (i a).val < win0_3.index t a * S8192x128.size a + S8192x128.size a := by
  show i ∈ ((View.whole main_v2).slice (win0_3.rect t)).set ↔ _
  rw [View.set_slice_whole, Rect.mem_set_unit]
  exact Iff.rfl

/-- Row r of the array lies in the tile of point r / 8192. -/
theorem covered (i : S262144x128.Idx) : ∃ t : Fin cfg0.N, (cfg0.win 3).flush t = true ∧ i ∈ ((cfg0.win 3).blk t).view.set := by
  have hi0 : (i 0).val < 262144 := (i 0).isLt
  have hi1 : (i 1).val < 128 := (i 1).isLt
  have hN : cfg0.N = 32 := N_0
  let t : Fin cfg0.N := ⟨(i 0).val / 8192, by rw [hN]; omega⟩
  obtain ⟨-, -, -, -, -, -, e0, e1⟩ := block_positions t
  have ht : t.val = (i 0).val / 8192 := rfl
  refine ⟨t, flush0_3 t, ?_⟩
  rw [mem_tile]
  intro a
  match a with
  | ⟨0, _⟩ => show win0_3.index t (0 : Fin 2) * 8192 ≤ (i 0).val ∧ (i 0).val < win0_3.index t (0 : Fin 2) * 8192 + 8192; rw [e0, ht]; omega
  | ⟨1, _⟩ => show win0_3.index t (1 : Fin 2) * 128 ≤ (i 1).val ∧ (i 1).val < win0_3.index t (1 : Fin 2) * 128 + 128; rw [e1]; omega

/-! ## The array after the run, and the run -/

/-- The result array after the run is the affine map of the rows of the arguments. -/
theorem final (c : Dev nD) : (dats m 0 c).arrAt 3 cfg0.N = result m c :=
  (dats m 0 c).arrAt_eq_of_cover 3 (result m c) (fun t _ => flushed_eq m c t) covered

/-- Every weakly fair execution of the kernel's program ends with the result array at the affine map of the rows of
    the arguments, and the arguments as they were. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.RowsAffine.Whole

end
-- ==== Proof.lean ====
/-
  A linear layer, tiled over its rows, against the whole-matrix formula.

  The kernel computes y = x · w + b for x of 262144 rows and 128 columns, a square w of order 128 and a bias b of 128
  entries. It visits 32 tiles of 8192 rows; on each it narrows the tile (and, beforehand, w) to a 16-bit format,
  multiplies on the matrix unit into a zero accumulator, and adds the bias laid out as one row and repeated down the
  tile. The reference is the same formula on whole arrays: one matrix product, the bias broadcast to every row, one sum.

  Over the extended reals a change of float format is the identity and the matrix unit's product into zero is the bare
  sum, so both programs compute, at row r and column j,
      (∑ k, x (r, k) · w (k, j)) + b j
  (`RowsAffine.rowsAffine`, Proof/Spec.lean). The two sides add the same 128 products and then the same bias entry: no
  term is regrouped or distributed, so no finiteness of the inputs is used.

  The pieces: the reference's four operations read at an entry are that formula (Proof/RefIsAffine.lean); the kernel's
  body at an entry of a tile is the formula over the tile's rows (Proof/TileBody.lean); the region finds w itself and b
  as a row (Proof/RegionEntry.lean); row p of tile t is row 8192·t + p of the array and the 32 tiles cover it, so the
  result array ends at the formula everywhere (Proof/WholeArray.lean). The kernel idealized and the kernel as printed
  differ by no rewrite, so the third claim is trivial; the three programs run to the end, leaving their arguments as
  they were, by their generated frames and the reference's generated run.
-/
import proofs.«420373_j36163624632513_3_alg».proof.Defs
import proofs.«420373_j36163624632513_3_alg».proof.Proof.Gen.Kernel
import proofs.«420373_j36163624632513_3_alg».proof.Proof.Gen.Kernel.Skeleton
import proofs.«420373_j36163624632513_3_alg».proof.Proof.Gen.Kernel.Launch
import proofs.«420373_j36163624632513_3_alg».proof.Proof.Gen.Kernel.Points
import proofs.«420373_j36163624632513_3_alg».proof.Proof.Gen.Kernel.Frame
import proofs.«420373_j36163624632513_3_alg».proof.Proof.Gen.KernelIdeal
import proofs.«420373_j36163624632513_3_alg».proof.Proof.Gen.KernelIdeal.Skeleton
import proofs.«420373_j36163624632513_3_alg».proof.Proof.Gen.KernelIdeal.Launch
import proofs.«420373_j36163624632513_3_alg».proof.Proof.Gen.KernelIdeal.Points
import proofs.«420373_j36163624632513_3_alg».proof.Proof.Gen.KernelIdeal.Frame
import proofs.«420373_j36163624632513_3_alg».proof.Proof.Gen.ReferenceIdeal
import proofs.«420373_j36163624632513_3_alg».proof.Proof.Gen.Pre_finite_inputs
import proofs.«420373_j36163624632513_3_alg».proof.Proof.Gen.KernelIdeal.Value
import proofs.«420373_j36163624632513_3_alg».proof.Proof.Gen.ReferenceIdeal.Run
import proofs.«420373_j36163624632513_3_alg».proof.Proof.Gen.ReferenceIdeal.Read
import proofs.«420373_j36163624632513_3_alg».proof.Proof.RefIsAffine
import proofs.«420373_j36163624632513_3_alg».proof.Proof.WholeArray
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading at the extended reals. -/
theorem preserves : Cert.preserves_Kernel_KernelIdeal := trivial

/-- From memories that agree on x, w and b, the kernel's result array and the reference's both end at the affine map
    of the rows of x: the kernel's by the tiles covering the array, the reference's by its four operations read at an
    entry. -/
theorem algebraic : Cert.algebraic_KernelIdeal_ReferenceIdeal := by
  intro m ρ m' ρ' _ hagree
  refine ⟨fun c => Cert.RowsAffine.Whole.result m c, Cert.RowsAffine.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.RowsAffine.Ref.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
